-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg2 : IVec S800000 32) (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg1 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v23 main_v26
  let main_c_10 : IVec S_ 32 := constantI S_ 32 0#32
  let main_v28 : IVec S800000 32 := broadcastInDim S800000 ![] bcast_S_S800000 main_c_10
  let main_v29 : IVec S800000 1 := cmpi .sge main_arg2 main_v28
  let main_c_11 : IVec S_ 1 := constantI S_ 1 1#1
  let main_v30 : IVec S_ 1 := (fun x v => Host.reduce IntOp.andi x v reducesTo_S800000_S_d0 h_S_) main_v29 main_c_11
  let main_v31 : IVec S_ 1 := andi main_v27 main_v30
  main_v31

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x1 .f32) (main_arg6 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg1 main_arg2 main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S800000x1 : Shape := ⟨2, ![800000, 1]⟩
abbrev S800000x64 : Shape := ⟨2, ![800000, 64]⟩
abbrev S400000x128 : Shape := ⟨2, ![400000, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S64x2 : Shape := ⟨2, ![64, 2]⟩
abbrev S128x2 : Shape := ⟨2, ![128, 2]⟩
abbrev S2 : Shape := ⟨1, ![2]⟩
abbrev S1x2 : Shape := ⟨2, ![1, 2]⟩
abbrev S4000x128 : Shape := ⟨2, ![4000, 128]⟩
abbrev S4000x2 : Shape := ⟨2, ![4000, 2]⟩
abbrev S4000x1 : Shape := ⟨2, ![4000, 1]⟩

abbrev nBuf : Space → Nat
  | .hbm => 30
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S800000x1, .i32⟩
  | .hbm, ⟨8, _⟩ => ⟨S800000x64, .f32⟩
  | .hbm, ⟨9, _⟩ => ⟨S800000x64, .bf16⟩
  | .hbm, ⟨10, _⟩ => ⟨S800000x1, .i32⟩
  | .hbm, ⟨11, _⟩ => ⟨S800000x64, .f32⟩
  | .hbm, ⟨12, _⟩ => ⟨S400000x128, .bf16⟩
  | .hbm, ⟨13, _⟩ => ⟨S400000x128, .f32⟩
  | .hbm, ⟨14, _⟩ => ⟨S_, .f32⟩
  | .hbm, ⟨15, _⟩ => ⟨S64x64, .f32⟩
  | .hbm, ⟨16, _⟩ => ⟨S64x128, .f32⟩
  | .hbm, ⟨17, _⟩ => ⟨S64x128, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S64x1, .f32⟩
  | .hbm, ⟨23, _⟩ => ⟨S64x2, .f32⟩
  | .hbm, ⟨24, _⟩ => ⟨S64x2, .f32⟩
  | .hbm, ⟨25, _⟩ => ⟨S128x2, .f32⟩
  | .hbm, ⟨26, _⟩ => ⟨S2, .f32⟩
  | .hbm, ⟨27, _⟩ => ⟨S1x2, .f32⟩
  | .hbm, ⟨28, _⟩ => ⟨S400000x128, .f32⟩
  | .hbm, ⟨29, _⟩ => ⟨S800000x64, .f32⟩
  | .local _ .vmem, ⟨0, _⟩ => ⟨S4000x128, .bf16⟩
  | .local _ .vmem, ⟨1, _⟩ => ⟨S4000x128, .bf16⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x2, .f32⟩
  | .local _ .vmem, ⟨7, _⟩ => ⟨S1x2, .f32⟩
  | .local _ .vmem, ⟨8, _⟩ => ⟨S4000x128, .f32⟩
  | .local _ .vmem, ⟨9, _⟩ => ⟨S4000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bitsLt_bf16_f32 : FTy.bits .bf16 < FTy.bits .f32
  shapeCasts_S800000x64_S400000x128 : S800000x64.ShapeCasts S400000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  bcast_S_S64x1 : S_.BroadcastsInDim S64x1 (![] : Fin 0 → Fin S64x1.rank)
  concatenates_S64x1_S64x1_S64x2_d1 : Shape.Concatenates [S64x1, S64x1] S64x2 1
  concatenates_S64x2_S64x2_S128x2_d0 : Shape.Concatenates [S64x2, S64x2] S128x2 0
  concatenates_S1_S1_S2_d0 : Shape.Concatenates [S1, S1] S2 0
  shapeCasts_S2_S1x2 : S2.ShapeCasts S1x2
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  slices_S4000x2_o0_0_S4000x1 : S4000x2.Slices ![0, 0] S4000x1
  shapeCasts_S4000x1_S4000x1 : S4000x1.ShapeCasts S4000x1
  broadcasts_S4000x1_S4000x128 : S4000x1.Broadcasts S4000x128
  slices_S4000x2_o0_1_S4000x1 : S4000x2.Slices ![0, 1] S4000x1
  iota_S4000x128_d1_w32 : S4000x128.Iotas .tc 32 [1]
  shapeCasts_S400000x128_S800000x64 : S400000x128.ShapeCasts S800000x64
  gather_S50000x64_S800000x1_S800000x64_1_0_n_n_0_1_164_wf : GatherDims.WF S50000x64 S800000x1 S800000x64 [1] [0] [] [0] [] 1 ![1, 64]
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .bf16 = 32 ∨ (Rect.block (s := S400000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S128x2.size a
  hwx0_4 : ∀ i : grid0.Coords, EltTy.bits .f32 = 32 ∨ (Rect.block (s := S128x2) S128x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S400000x128.size a
  hwx0_6 : ∀ i : grid0.Coords, EltTy.bits .f32 = 32 ∨ (Rect.block (s := S400000x128) S4000x128.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_v3) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x64, .f32⟩
  | .hbm, ⟨26, _⟩ => ⟨S800000x64, .f32⟩
  | .hbm, ⟨27, _⟩ => ⟨S1x64, .f32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S800000x64, .f32⟩
  | .hbm, ⟨32, _⟩ => ⟨S800000x64, .f32⟩
  | .hbm, ⟨33, _⟩ => ⟨S800000x1, .f32⟩
  | .hbm, ⟨34, _⟩ => ⟨S1x1, .f32⟩
  | .hbm, ⟨35, _⟩ => ⟨S800000x1, .f32⟩
  | .hbm, ⟨36, _⟩ => ⟨S800000x1, .f32⟩
  | .hbm, ⟨37, _⟩ => ⟨S_, .f32⟩
  | .hbm, ⟨38, _⟩ => ⟨S800000x1, .f32⟩
  | .hbm, ⟨39, _⟩ => ⟨S800000x1, .f32⟩
  | .hbm, ⟨40, _⟩ => ⟨S800000x1, .f32⟩
  | .hbm, ⟨41, _⟩ => ⟨S800000x1, .f32⟩
  | .hbm, ⟨42, _⟩ => ⟨S800000x64, .f32⟩
  | .hbm, ⟨43, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.PreDecode.lean ====
/-
  What the precondition says of the two index arrays.

  The precondition is a conjunction of `jnp.all`s, printed as a chain of `and`s over one-index results. Its last two
  conjuncts are `all (src_idx ≥ 0)` and `all (dst_idx ≥ 0)` (signed comparisons with a splat of the zero word): when the
  whole predicate is 1, each is 1, and a reduction by `and` that came out 1 met a 1 at every index.
-/
import proofs.«407621_j60533269069904_3_alg».proof.Pre_finite_inputs
import Idealize.ShloMosaic.Lib.ReduceAll
import Idealize.ShloMosaic.Lib.ValueIdx
import Idealize.ShloMosaic.Lib.Pipeline.Value

noncomputable section

namespace Cert.Pre_finite_inputs.Decode

open Cert.Pre_finite_inputs Idealize.ShloMosaic Idealize.ShloMosaic.ValueIdx

instance : Subsingleton S_.Idx := ⟨fun a b => funext fun d => d.elim0⟩

variable [Facts]
open Facts

/-- A splat of the zero word over the index arrays' shape reads the zero word. -/
theorem zero_splat_apply (i : S800000.Idx) :
    (broadcastInDim S800000 ![] bcast_S_S800000 (constantI S_ 32 0#32) : IVec S800000 32) i = 0#32 := by
  rw [broadcastInDim_apply _ bcast_S_S800000 _ i ix0 (fun a => a.elim0)]
  rfl

/-- Under the precondition no entry of the source or of the destination index array is negative. -/
theorem nonneg_of_pre {F : FTy → Type} [FloatOps F] (a0 : FVec F S50000x64 .f32) (a1 a2 : IVec S800000 32) (a3 : FVec F S64x64 .f32)
    (a4 : FVec F S64 .f32) (a5 : FVec F S64x1 .f32) (a6 : FVec F S1 .f32)
    (h : fn (F := F) a0 a1 a2 a3 a4 a5 a6 = fun _ => 1#1) :
    (∀ i, IntOp.cmpi .sge (a1 i) 0#32 = 1#1) ∧ (∀ i, IntOp.cmpi .sge (a2 i) 0#32 = 1#1) := by
  have h0 := congrFun h ix0
  dsimp only [fn, fn_part1] at h0
  obtain ⟨h27, h30⟩ := IntOp.andi_eq_one.1 h0
  obtain ⟨h23, h26⟩ := IntOp.andi_eq_one.1 h27
  refine ⟨fun i => ?_, fun i => ?_⟩
  · have hi := Host.reduce_andi_all _ _ _ _ ix0 h26 i
    rw [← zero_splat_apply i]
    exact hi
  · have hi := Host.reduce_andi_all _ _ _ _ ix0 h30 i
    rw [← zero_splat_apply i]
    exact hi

end Cert.Pre_finite_inputs.Decode

end
-- ==== Proof.Spec.lean ====
/-
  The function both programs compute, over the extended reals.

  Every edge `e` carries two feature rows of length 64: its source's row `fs e` and its destination's row `fd e`.
  A two-layer perceptron scores the difference of the rows,
    hidden e k = max (∑ i, (fs e i - fd e i) * W1 i k + b1 k) 0,
    score  e   = max (∑ k, hidden e k * W2 k + b2) 0,
  the edge's attention is `exp (-(score e))`, and the message on the edge is the destination's row scaled by it:
    message e d = exp (-(score e)) * fd e d.
  The rows enter as arrays of shape [800000, 64]: where they come from (a gather from the node table) is the
  same on both sides and is never opened.
-/
import Idealize.ShloMosaic.PureOps.Ideal
import Idealize.ShloMosaic.Lib.ValueIdx

noncomputable section

open scoped BigOperators

namespace Cert.EdgeAttn

open Idealize.ShloMosaic Idealize.ShloMosaic.ValueIdx

/-- One row of 64 features per edge. -/
abbrev Rows := (⟨2, ![800000, 64]⟩ : Shape).Idx → EReal
/-- The first layer's weights and bias, the second layer's weights and bias. -/
abbrev W1T := (⟨2, ![64, 64]⟩ : Shape).Idx → EReal
abbrev B1T := (⟨1, ![64]⟩ : Shape).Idx → EReal
abbrev W2T := (⟨2, ![64, 1]⟩ : Shape).Idx → EReal
abbrev B2T := (⟨1, ![1]⟩ : Shape).Idx → EReal

/-- The first layer on the difference of an edge's two rows, rectified. -/
def hidden (fs fd : Rows) (W1 : W1T) (b1 : B1T) (e : Fin 800000) (k : Fin 64) : EReal :=
  max ((∑ i : Fin 64, (fs (ix2 e i) - fd (ix2 e i)) * W1 (ix2 i k)) + b1 (ix1 k)) 0

/-- The second layer on the hidden row, rectified: the edge's score. -/
def score (fs fd : Rows) (W1 : W1T) (b1 : B1T) (W2 : W2T) (b2 : B2T) (e : Fin 800000) : EReal :=
  max ((∑ k : Fin 64, hidden fs fd W1 b1 e k * W2 (ix2 k (0 : Fin 1))) + b2 (ix1 (0 : Fin 1))) 0

/-- The message on every edge: the destination's row scaled by `exp (-(score))`. -/
def message (fs fd : Rows) (W1 : W1T) (b1 : B1T) (W2 : W2T) (b2 : B2T) : Rows :=
  fun j => Ideal.exp (-(score fs fd W1 b1 W2 b2 (j 0))) * fd j

theorem message_apply (fs fd : Rows) (W1 : W1T) (b1 : B1T) (W2 : W2T) (b2 : B2T) (e : Fin 800000) (d : Fin 64) :
    message fs fd W1 b1 W2 b2 (ix2 e d) = Ideal.exp (-(score fs fd W1 b1 W2 b2 e)) * fd (ix2 e d) := rfl

/-! ## Two edges side by side

  A row of 128 lanes holds two edges: lanes `64 p + i` (`p` = 0, 1) are edge `p`'s. A weight matrix that is block
  diagonal for this layout — entry `(k, l)` is `w (k % 64)` of the block when `k` and `l` lie in the same half and `0`
  otherwise — contracts, against a 128-lane row, only the half the output lane lies in: the other half's products
  are products with `0`, which vanish on every extended real. -/

/-- A sum over 128 lanes of products with a factor that vanishes outside half `p` is the sum over that half. -/
theorem sum_half (p : Fin 2) (f g : Fin 128 → EReal) (w : Fin 64 → EReal)
    (hg : ∀ k : Fin 128, g k = if k.val / 64 = p.val then w ⟨k.val % 64, Nat.mod_lt _ (by decide)⟩ else 0) :
    ∑ k : Fin 128, f k * g k = ∑ i : Fin 64, f ⟨64 * p.val + i.val, by have := p.isLt; have := i.isLt; omega⟩ * w i := by
  have hsplit := Fin.sum_univ_add (a := 64) (b := 64) (fun k : Fin (64 + 64) => f k * g k)
  rw [show (∑ k : Fin 128, f k * g k) = ∑ k : Fin (64 + 64), f k * g k from rfl, hsplit]
  match p with
  | ⟨0, _⟩ =>
    have h2 : ∑ i : Fin 64, f (Fin.natAdd 64 i) * g (Fin.natAdd 64 i) = 0 := by
      refine Finset.sum_eq_zero fun i _ => ?_
      rw [hg (Fin.natAdd 64 i), if_neg (by have := i.isLt; show ¬ (64 + i.val) / 64 = 0; omega), mul_zero]
    rw [h2, add_zero]
    refine Finset.sum_congr rfl fun i _ => ?_
    rw [hg (Fin.castAdd 64 i), if_pos (by have := i.isLt; show i.val / 64 = 0; omega)]
    congr 2
    · exact Fin.ext (by show i.val = 64 * 0 + i.val; omega)
    · exact Fin.ext (by have := i.isLt; show i.val % 64 = i.val; omega)
  | ⟨1, _⟩ =>
    have h1 : ∑ i : Fin 64, f (Fin.castAdd 64 i) * g (Fin.castAdd 64 i) = 0 := by
      refine Finset.sum_eq_zero fun i _ => ?_
      rw [hg (Fin.castAdd 64 i), if_neg (by have := i.isLt; show ¬ i.val / 64 = 1; omega), mul_zero]
    rw [h1, zero_add]
    refine Finset.sum_congr rfl fun i _ => ?_
    rw [hg (Fin.natAdd 64 i), if_pos (by have := i.isLt; show (64 + i.val) / 64 = 1; omega)]
    congr 2
    · exact Fin.ext (by have := i.isLt; show (64 + i.val) % 64 = i.val; omega)

end Cert.EdgeAttn

end
-- ==== Proof.RefSide.lean ====
/-
  The reference computes `message` of the rows it gathers.

  jnp's `features[idx]` first wraps a negative index (`idx < 0 ↦ idx + 50000`) and then gathers; on indices that are
  not negative the wrap is the identity, so the gather reads the node table at the index array itself. After that the
  reference is, stage by stage, the specification: difference of the two gathered rows, the two rectified layers,
  `exp` of the negated score, and the product with the destination's row.
-/
import proofs.«407621_j60533269069904_3_alg».proof.Proof.Gen.ReferenceIdeal.Read
import proofs.«407621_j60533269069904_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeAttn

/-- A word that is signed-at-least another is not signed-below it. -/
theorem slt_eq_zero_of_sge (a b : BitVec 32) (h : IntOp.cmpi .sge a b = 1#1) : IntOp.cmpi .slt a b = 0#1 := by
  have h' : BitVec.ofBool (b.sle a) = 1#1 := h
  have hle : b.sle a = true := by
    cases hb : b.sle a
    · rw [hb] at h'; exact absurd h' (by decide)
    · rfl
  have hlt : a.slt b = false := by
    simp only [BitVec.sle, BitVec.slt, decide_eq_true_eq, decide_eq_false_iff_not] at hle ⊢
    omega
  show BitVec.ofBool (a.slt b) = 0#1
  rw [hlt]; rfl

/-- On a source index array with no negative entry, the wrap of negative indices changes nothing. -/
theorem wrap_src (x1 : (⟨S800000, .i32⟩ : BufTy).Contents (Elt Ideal)) (h : ∀ i, IntOp.cmpi .sge (x1 i) 0#32 = 1#1) :
    val_main_v4 (F := Ideal) x1 = x1 := by
  funext i
  rw [val_main_v4_apply, val_main_v1_apply, val_main_v0_apply, val_main_c_apply, slt_eq_zero_of_sge _ _ (h i)]
  exact select_zero _ _

/-- The same for the destination index array. -/
theorem wrap_dst (x2 : (⟨S800000, .i32⟩ : BufTy).Contents (Elt Ideal)) (h : ∀ i, IntOp.cmpi .sge (x2 i) 0#32 = 1#1) :
    val_main_v11 (F := Ideal) x2 = x2 := by
  funext i
  rw [val_main_v11_apply, val_main_v8_apply, val_main_v7_apply, val_main_c_1_apply, slt_eq_zero_of_sge _ _ (h i)]
  exact select_zero _ _

/-- The rows the reference gathers at an index array: the node table at the array as a column of start indices. -/
def rows (x0 : (⟨S50000x64, .f32⟩ : BufTy).Contents (Elt Ideal)) (x : (⟨S800000, .i32⟩ : BufTy).Contents (Elt Ideal)) : Rows :=
  Host.gather gather_S50000x64_S800000x1_S800000x64_1_0_n_n_0_1_164 x0 (broadcastInDim S800000x1 ![0] bcast_S800000_S800000x1_0 x)

theorem src_rows (x0 : (⟨S50000x64, .f32⟩ : BufTy).Contents (Elt Ideal)) (x1 : (⟨S800000, .i32⟩ : BufTy).Contents (Elt Ideal))
    (h : ∀ i, IntOp.cmpi .sge (x1 i) 0#32 = 1#1) : val_main_v6 (F := Ideal) x0 x1 = rows x0 x1 := by
  unfold val_main_v6 val_main_v5 rows
  rw [wrap_src x1 h]

theorem dst_rows (x0 : (⟨S50000x64, .f32⟩ : BufTy).Contents (Elt Ideal)) (x2 : (⟨S800000, .i32⟩ : BufTy).Contents (Elt Ideal))
    (h : ∀ i, IntOp.cmpi .sge (x2 i) 0#32 = 1#1) : val_main_v13 (F := Ideal) x0 x2 = rows x0 x2 := by
  unfold val_main_v13 val_main_v12 rows
  rw [wrap_dst x2 h]

/-- The reference's result is `message` of the gathered rows, index by index. -/
theorem result_eq (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x1, .f32⟩ : BufTy).Contents (Elt Ideal)) (x6 : (⟨S1, .f32⟩ : BufTy).Contents (Elt Ideal))
    (h1 : ∀ i, IntOp.cmpi .sge (x1 i) 0#32 = 1#1) (h2 : ∀ i, IntOp.cmpi .sge (x2 i) 0#32 = 1#1) :
    val_main_v28 (F := Ideal) x0 x1 x2 x3 x4 x5 x6 = message (rows x0 x1) (rows x0 x2) x3 x4 x5 x6 := by
  funext j
  obtain ⟨e, d, rfl⟩ : ∃ (e : Fin 800000) (d : Fin 64), j = ix2 e d := ⟨j 0, j 1, eq_ix2 j⟩
  have i27 : idx_main_v27 (ix2 e d) = ix2 e (0 : Fin 1) := funext fun a => Fin.ext (by match a with | ⟨0, _⟩ => rfl | ⟨1, _⟩ => rfl)
  have il20 : ∀ k : Fin 64, lidx_main_v20 (ix2 e (0 : Fin 1)) k = ix2 e k := fun k =>
    funext fun a => Fin.ext (by match a with | ⟨0, _⟩ => rfl | ⟨1, _⟩ => rfl)
  have ir20 : ∀ k : Fin 64, ridx_main_v20 (ix2 e (0 : Fin 1)) k = ix2 k (0 : Fin 1) := fun k =>
    funext fun a => Fin.ext (by match a with | ⟨0, _⟩ => rfl | ⟨1, _⟩ => rfl)
  have i22 : idx_main_v21 (idx_main_v22 (ix2 e (0 : Fin 1))) = ix1 (0 : Fin 1) :=
    funext fun a => Fin.ext (by match a with | ⟨0, _⟩ => rfl)
  have il15 : ∀ k i : Fin 64, lidx_main_v15 (ix2 e k) i = ix2 e i := fun k i =>
    funext fun a => Fin.ext (by match a with | ⟨0, _⟩ => rfl | ⟨1, _⟩ => rfl)
  have ir15 : ∀ k i : Fin 64, ridx_main_v15 (ix2 e k) i = ix2 i k := fun k i =>
    funext fun a => Fin.ext (by match a with | ⟨0, _⟩ => rfl | ⟨1, _⟩ => rfl)
  have i17 : ∀ k : Fin 64, idx_main_v16 (idx_main_v17 (ix2 e k)) = ix1 k := fun k =>
    funext fun a => Fin.ext (by match a with | ⟨0, _⟩ => rfl)
  rw [message_apply, val_main_v28_apply, val_main_v27_apply, i27, val_main_v26_apply, val_main_v25_apply, val_main_v24_apply,
    val_main_v23_apply, val_main_v20_apply, val_main_v22_apply, val_main_v21_apply, i22, val_main_call1_v0_apply,
    val_main_call1_cst_apply, dst_rows x0 x2 h2]
  simp only [il20, ir20, val_main_v19_apply, val_main_v18_apply, val_main_v15_apply, val_main_v17_apply, val_main_v16_apply,
    val_main_call0_v0_apply, val_main_call0_cst_apply, val_main_v14_apply, il15, ir15, i17, src_rows x0 x1 h1, dst_rows x0 x2 h2,
    Ideal.mulf_def, Ideal.addf_def, Ideal.subf_def, Ideal.maximumf_def, Ideal.hostNegf_def, Ideal.negf_def, Ideal.hostUnary_exp_def,
    Ideal.ofBits_def, Ideal.ofBits_zero_f32]
  rfl

end Cert.ReferenceIdeal.RefValue

end
-- ==== Proof.LibConcatPair.lean ====
/-
  A concatenation of two equal-shaped pieces read at coordinates.

  `concatenate` of two rank-2 arrays of shape [n, c] along the rows is the first piece on rows below `n` and the second,
  `n` rows up, from there on; along the columns likewise; and of two rank-1 arrays of length `n` the same on the one
  axis. Stated over any extents (the result's extent `N` with `N = n + n` as a hypothesis, so that a literal result
  shape matches as it stands) and over the program's own shape relation `h`.
-/
import Idealize.ShloMosaic.Lib.Pipeline.Value
import Idealize.ShloMosaic.Lib.ValueIdx

noncomputable section

namespace Cert.Lib

open Idealize.ShloMosaic Idealize.ShloMosaic.ValueIdx

variable {α : Type}

/-- Two [n, c] pieces stacked along the rows, read at row `k` and column `l`. -/
theorem concat_rows_apply (N n c : Nat) (hN : N = n + n) (X Y : (⟨2, ![n, c]⟩ : Shape).Idx → α)
    (h : Shape.Concatenates [(⟨2, ![n, c]⟩ : Shape), ⟨2, ![n, c]⟩] ⟨2, ![N, c]⟩ (0 : Fin 2)) (k : Fin N) (l : Fin c) :
    concatenate ⟨2, ![N, c]⟩ (0 : Fin 2) [⟨⟨2, ![n, c]⟩, X⟩, ⟨⟨2, ![n, c]⟩, Y⟩] h (ix2 k l)
      = if hk : k.val < n then X (ix2 ⟨k.val, hk⟩ l) else Y (ix2 ⟨k.val - n, by have := k.isLt; omega⟩ l) := by
  by_cases hk : k.val < n
  · rw [dif_pos hk]
    exact concatenate_pair_apply_left (0 : Fin 2) X Y h (ix2 k l) rfl (ix2 ⟨k.val, hk⟩ l)
      (fun b => by match b with | ⟨0, _⟩ => rfl | ⟨1, _⟩ => rfl)
  · rw [dif_neg hk]
    exact concatenate_pair_apply_right (0 : Fin 2) X Y h (ix2 k l) rfl rfl (ix2 ⟨k.val - n, by have := k.isLt; omega⟩ l)
      (fun b hb => by match b with | ⟨0, _⟩ => exact absurd rfl hb | ⟨1, _⟩ => rfl)
      (by show k.val - n + n = k.val; omega)

/-- Two [n, c] pieces set side by side along the columns, read at row `k` and column `l`. -/
theorem concat_cols_apply (C n c : Nat) (hC : C = c + c) (X Y : (⟨2, ![n, c]⟩ : Shape).Idx → α)
    (h : Shape.Concatenates [(⟨2, ![n, c]⟩ : Shape), ⟨2, ![n, c]⟩] ⟨2, ![n, C]⟩ (1 : Fin 2)) (k : Fin n) (l : Fin C) :
    concatenate ⟨2, ![n, C]⟩ (1 : Fin 2) [⟨⟨2, ![n, c]⟩, X⟩, ⟨⟨2, ![n, c]⟩, Y⟩] h (ix2 k l)
      = if hl : l.val < c then X (ix2 k ⟨l.val, hl⟩) else Y (ix2 k ⟨l.val - c, by have := l.isLt; omega⟩) := by
  by_cases hl : l.val < c
  · rw [dif_pos hl]
    exact concatenate_pair_apply_left (1 : Fin 2) X Y h (ix2 k l) rfl (ix2 k ⟨l.val, hl⟩)
      (fun b => by match b with | ⟨0, _⟩ => rfl | ⟨1, _⟩ => rfl)
  · rw [dif_neg hl]
    exact concatenate_pair_apply_right (1 : Fin 2) X Y h (ix2 k l) rfl rfl (ix2 k ⟨l.val - c, by have := l.isLt; omega⟩)
      (fun b hb => by match b with | ⟨0, _⟩ => rfl | ⟨1, _⟩ => exact absurd rfl hb)
      (by show l.val - c + c = l.val; omega)

/-- Two length-`n` vectors joined end to end, read at position `k`. -/
theorem concat_vec_apply (N n : Nat) (hN : N = n + n) (X Y : (⟨1, ![n]⟩ : Shape).Idx → α)
    (h : Shape.Concatenates [(⟨1, ![n]⟩ : Shape), ⟨1, ![n]⟩] ⟨1, ![N]⟩ (0 : Fin 1)) (k : Fin N) :
    concatenate ⟨1, ![N]⟩ (0 : Fin 1) [⟨⟨1, ![n]⟩, X⟩, ⟨⟨1, ![n]⟩, Y⟩] h (ix1 k)
      = if hk : k.val < n then X (ix1 ⟨k.val, hk⟩) else Y (ix1 ⟨k.val - n, by have := k.isLt; omega⟩) := by
  by_cases hk : k.val < n
  · rw [dif_pos hk]
    exact concatenate_pair_apply_left (0 : Fin 1) X Y h (ix1 k) rfl (ix1 ⟨k.val, hk⟩)
      (fun b => by match b with | ⟨0, _⟩ => rfl)
  · rw [dif_neg hk]
    exact concatenate_pair_apply_right (0 : Fin 1) X Y h (ix1 k) rfl rfl (ix1 ⟨k.val - n, by have := k.isLt; omega⟩)
      (fun b hb => by match b with | ⟨0, _⟩ => exact absurd rfl hb)
      (by show k.val - n + n = k.val; omega)

end Cert.Lib

end
-- ==== Proof.HostSide.lean ====
/-
  What the kernel's six input arrays hold when the region is entered, read at an index.

  The two row arrays are the gathered rows, two edges to a 128-lane row: a row-major [800000, 64] array viewed as
  [400000, 128] puts edge `2 R + p` in lanes `64 p + d` of row `R` (the source's rows pass through a change of float
  format on the way, the identity on extended reals). The first layer's weights are laid out block diagonally,
  `[[W1, 0], [0, W1]]`, its bias twice side by side; the second layer's likewise, `[[W2, 0], [0, W2]]` and `[b2, b2]`:
  entry `(k, l)` of a block-diagonal array is the block's entry `(k % 64, l % (block width))` when `k` and `l` lie
  in the same half and `0` otherwise.
-/
import proofs.«407621_j60533269069904_3_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws
import proofs.«407621_j60533269069904_3_alg».proof.Proof.LibConcatPair

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The node table, the two index arrays and the four parameter arrays as launched. -/
abbrev feat (c : Dev nD) : FVec Ideal S50000x64 .f32 := m ((c : Thread nD τ).loc main_arg0)
abbrev srcIdx (c : Dev nD) : IVec S800000 32 := m ((c : Thread nD τ).loc main_arg1)
abbrev dstIdx (c : Dev nD) : IVec S800000 32 := m ((c : Thread nD τ).loc main_arg2)
abbrev w1 (c : Dev nD) : FVec Ideal S64x64 .f32 := m ((c : Thread nD τ).loc main_arg3)
abbrev b1 (c : Dev nD) : FVec Ideal S64 .f32 := m ((c : Thread nD τ).loc main_arg4)
abbrev w2 (c : Dev nD) : FVec Ideal S64x1 .f32 := m ((c : Thread nD τ).loc main_arg5)
abbrev b2 (c : Dev nD) : FVec Ideal S1 .f32 := m ((c : Thread nD τ).loc main_arg6)

/-- The rows the kernel's host code gathers at an index array: the node table at the array as a column of start indices. -/
def rows (c : Dev nD) (x : IVec S800000 32) : FVec Ideal S800000x64 .f32 :=
  Host.gather gather_S50000x64_S800000x1_S800000x64_1_0_n_n_0_1_164 (feat m c) (broadcastInDim S800000x1 ![0] bcast_S800000_S800000x1_0 x)

/-- The array a [800000, 64] array is when viewed [400000, 128], at row `R` and lane `l`: edge `2 R + l / 64`, feature `l % 64`. -/
theorem packed_apply {α : Type} (x : S800000x64.Idx → α) (R : Fin 400000) (l : Fin 128) :
    shapeCast S400000x128 x shapeCasts_S800000x64_S400000x128 (ix2 R l)
      = x (ix2 ⟨2 * R.val + l.val / 64, by have := R.isLt; have := l.isLt; omega⟩ ⟨l.val % 64, Nat.mod_lt _ (by decide)⟩) := by
  refine shapeCast_apply x _ _ _ ?_
  rw [Shape.rowMajor_val_two, Shape.rowMajor_val_two]
  show (2 * R.val + l.val / 64) * 64 + l.val % 64 = R.val * 128 + l.val
  have := l.isLt; omega

/-- Window 0's array: the source rows, two edges to a row. -/
theorem src_at (c : Dev nD) (R : Fin 400000) (l : Fin 128) :
    (V m c main_v3 : S400000x128.Idx → EReal) (ix2 R l)
      = rows m c (srcIdx m c) (ix2 ⟨2 * R.val + l.val / 64, by have := R.isLt; have := l.isLt; omega⟩ ⟨l.val % 64, Nat.mod_lt _ (by decide)⟩) := by
  have e : (V m c main_v3 : S400000x128.Idx → EReal)
      = shapeCast S400000x128 (truncf (F := Ideal) .bf16 (rows m c (srcIdx m c)) bitsLt_bf16_f32) shapeCasts_S800000x64_S400000x128 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [e, packed_apply]
  rfl

/-- Window 1's array: the destination rows, two edges to a row. -/
theorem dst_at (c : Dev nD) (R : Fin 400000) (l : Fin 128) :
    (V m c main_v4 : S400000x128.Idx → EReal) (ix2 R l)
      = rows m c (dstIdx m c) (ix2 ⟨2 * R.val + l.val / 64, by have := R.isLt; have := l.isLt; omega⟩ ⟨l.val % 64, Nat.mod_lt _ (by decide)⟩) := by
  have e : (V m c main_v4 : S400000x128.Idx → EReal)
      = shapeCast S400000x128 (rows m c (dstIdx m c)) shapeCasts_S800000x64_S400000x128 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [e, packed_apply]

/-! ## The block-diagonal parameters -/

/-- A splat of the zero word over a [64, 64] array reads `0`. -/
theorem zeros64_apply (j : S64x64.Idx) :
    (broadcastInDim S64x64 ![] bcast_S_S64x64 (constant (F := Ideal) S_ .f32 0x00000000#32) : FVec Ideal S64x64 .f32) j = 0 := by
  rw [broadcastInDim_apply _ bcast_S_S64x64 _ j ix0 (fun a => a.elim0)]
  exact Ideal.ofBits_zero_f32

/-- A splat of the zero word over a [64, 1] array reads `0`. -/
theorem zeros1_apply (j : S64x1.Idx) :
    (broadcastInDim S64x1 ![] bcast_S_S64x1 (constant (F := Ideal) S_ .f32 0x00000000#32) : FVec Ideal S64x1 .f32) j = 0 := by
  rw [broadcastInDim_apply _ bcast_S_S64x1 _ j ix0 (fun a => a.elim0)]
  exact Ideal.ofBits_zero_f32

/-- Window 2's array, `[[W1, 0], [0, W1]]`: the block's entry where row and column lie in the same half, `0` elsewhere. -/
theorem w1_at (c : Dev nD) (k l : Fin 128) :
    (V m c main_v8 : S128x128.Idx → EReal) (ix2 k l)
      = if k.val / 64 = l.val / 64 then w1 m c (ix2 ⟨k.val % 64, Nat.mod_lt _ (by decide)⟩ ⟨l.val % 64, Nat.mod_lt _ (by decide)⟩) else 0 := by
  have e : (V m c main_v8 : S128x128.Idx → EReal)
      = concatenate S128x128 0
          [⟨S64x128, concatenate S64x128 1 [⟨S64x64, w1 m c⟩, ⟨S64x64, broadcastInDim S64x64 ![] bcast_S_S64x64 (constant (F := Ideal) S_ .f32 0x00000000#32)⟩] concatenates_S64x64_S64x64_S64x128_d1⟩,
           ⟨S64x128, concatenate S64x128 1 [⟨S64x64, broadcastInDim S64x64 ![] bcast_S_S64x64 (constant (F := Ideal) S_ .f32 0x00000000#32)⟩, ⟨S64x64, w1 m c⟩] concatenates_S64x64_S64x64_S64x128_d1⟩]
          concatenates_S64x128_S64x128_S128x128_d0 := by
    dsimp only [Gen.V, Gen.V0]
    simp only [Gen.hostOps0, Gen.hostOps0_1, Gen.hostOps0_2, Gen.hostOps0_3, List.flatten_cons, List.flatten_nil, List.append_nil, List.cons_append, List.nil_append]
    after_results
  rw [e]
  refine (Cert.Lib.concat_rows_apply 128 64 128 rfl _ _ _ k l).trans ?_
  have hkl := k.isLt; have hll := l.isLt
  by_cases hk : k.val < 64
  · rw [dif_pos hk]
    refine (Cert.Lib.concat_cols_apply 128 64 64 rfl _ _ _ _ l).trans ?_
    by_cases hl : l.val < 64
    · rw [dif_pos hl, if_pos (by omega)]
      exact congrArg (w1 m c) (Shape.idx_ext₂ (by show k.val = k.val % 64; omega) (by show l.val = l.val % 64; omega))
    · rw [dif_neg hl, if_neg (by omega)]
      exact zeros64_apply _
  · rw [dif_neg hk]
    refine (Cert.Lib.concat_cols_apply 128 64 64 rfl _ _ _ _ l).trans ?_
    by_cases hl : l.val < 64
    · rw [dif_pos hl, if_neg (by omega)]
      exact zeros64_apply _
    · rw [dif_neg hl, if_pos (by omega)]
      exact congrArg (w1 m c) (Shape.idx_ext₂ (by show k.val - 64 = k.val % 64; omega) (by show l.val - 64 = l.val % 64; omega))

/-- Window 3's array, the first bias twice side by side: lane `l` holds `b1 (l % 64)`. -/
theorem b1_at (c : Dev nD) (l : Fin 128) :
    (V m c main_v10 : S1x128.Idx → EReal) (ix2 (0 : Fin 1) l) = b1 m c (ix1 ⟨l.val % 64, Nat.mod_lt _ (by decide)⟩) := by
  have e : (V m c main_v10 : S1x128.Idx → EReal)
      = shapeCast S1x128 (concatenate S128 0 [⟨S64, b1 m c⟩, ⟨S64, b1 m c⟩] concatenates_S64_S64_S128_d0) shapeCasts_S128_S1x128 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [e]
  refine (shapeCast_apply _ _ _ (ix1 l) (by rw [Shape.rowMajor_val_one, Shape.rowMajor_val_two]; show l.val = 0 * 128 + l.val; omega)).trans ?_
  refine (Cert.Lib.concat_vec_apply 128 64 rfl _ _ _ l).trans ?_
  have hll := l.isLt
  by_cases hl : l.val < 64
  · rw [dif_pos hl]
    exact congrArg (b1 m c) (funext fun a => Fin.ext (by match a with | ⟨0, _⟩ => show l.val = l.val % 64; omega))
  · rw [dif_neg hl]
    exact congrArg (b1 m c) (funext fun a => Fin.ext (by match a with | ⟨0, _⟩ => show l.val - 64 = l.val % 64; omega))

/-- Window 4's array, `[[W2, 0], [0, W2]]`: column `p` holds `W2` on the rows of half `p`, `0` on the other half's. -/
theorem w2_at (c : Dev nD) (k : Fin 128) (p : Fin 2) :
    (V m c main_v14 : S128x2.Idx → EReal) (ix2 k p)
      = if k.val / 64 = p.val then w2 m c (ix2 ⟨k.val % 64, Nat.mod_lt _ (by decide)⟩ (0 : Fin 1)) else 0 := by
  have e : (V m c main_v14 : S128x2.Idx → EReal)
      = concatenate S128x2 0
          [⟨S64x2, concatenate S64x2 1 [⟨S64x1, w2 m c⟩, ⟨S64x1, broadcastInDim S64x1 ![] bcast_S_S64x1 (constant (F := Ideal) S_ .f32 0x00000000#32)⟩] concatenates_S64x1_S64x1_S64x2_d1⟩,
           ⟨S64x2, concatenate S64x2 1 [⟨S64x1, broadcastInDim S64x1 ![] bcast_S_S64x1 (constant (F := Ideal) S_ .f32 0x00000000#32)⟩, ⟨S64x1, w2 m c⟩] concatenates_S64x1_S64x1_S64x2_d1⟩]
          concatenates_S64x2_S64x2_S128x2_d0 := by
    dsimp only [Gen.V, Gen.V0]
    simp only [Gen.hostOps0, Gen.hostOps0_1, Gen.hostOps0_2, Gen.hostOps0_3, List.flatten_cons, List.flatten_nil, List.append_nil, List.cons_append, List.nil_append]
    after_results
  rw [e]
  refine (Cert.Lib.concat_rows_apply 128 64 2 rfl _ _ _ k p).trans ?_
  have hkl := k.isLt; have hpl := p.isLt
  by_cases hk : k.val < 64
  · rw [dif_pos hk]
    refine (Cert.Lib.concat_cols_apply 2 64 1 rfl _ _ _ _ p).trans ?_
    by_cases hp : p.val < 1
    · rw [dif_pos hp, if_pos (by omega)]
      exact congrArg (w2 m c) (Shape.idx_ext₂ (by show k.val = k.val % 64; omega) (by show p.val = 0; omega))
    · rw [dif_neg hp, if_neg (by omega)]
      exact zeros1_apply _
  · rw [dif_neg hk]
    refine (Cert.Lib.concat_cols_apply 2 64 1 rfl _ _ _ _ p).trans ?_
    by_cases hp : p.val < 1
    · rw [dif_pos hp, if_neg (by omega)]
      exact zeros1_apply _
    · rw [dif_neg hp, if_pos (by omega)]
      exact congrArg (w2 m c) (Shape.idx_ext₂ (by show k.val - 64 = k.val % 64; omega) (by show p.val - 1 = 0; omega))

/-- Window 5's array, the second bias twice side by side: both lanes hold `b2`. -/
theorem b2_at (c : Dev nD) (p : Fin 2) :
    (V m c main_v16 : S1x2.Idx → EReal) (ix2 (0 : Fin 1) p) = b2 m c (ix1 (0 : Fin 1)) := by
  have e : (V m c main_v16 : S1x2.Idx → EReal)
      = shapeCast S1x2 (concatenate S2 0 [⟨S1, b2 m c⟩, ⟨S1, b2 m c⟩] concatenates_S1_S1_S2_d0) shapeCasts_S2_S1x2 := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  rw [e]
  refine (shapeCast_apply _ _ _ (ix1 p) (by rw [Shape.rowMajor_val_one, Shape.rowMajor_val_two]; show p.val = 0 * 2 + p.val; omega)).trans ?_
  refine (Cert.Lib.concat_vec_apply 2 1 rfl _ _ _ p).trans ?_
  have hpl := p.isLt
  by_cases hp : p.val < 1
  · rw [dif_pos hp]
    exact congrArg (b2 m c) (funext fun a => Fin.ext (by match a with | ⟨0, _⟩ => show p.val = 0; omega))
  · rw [dif_neg hp]
    exact congrArg (b2 m c) (funext fun a => Fin.ext (by match a with | ⟨0, _⟩ => show p.val - 1 = 0; omega))

end Cert.KernelIdeal.HostSide

end
-- ==== Proof.Body.lean ====
/-
  The kernel's body at one lane.

  At a grid point the body holds a [4000, 128] block of source rows `x0` and of destination rows `x1` (two edges to a
  row), the [128, 128] first-layer weights `x2` with the [1, 128] bias `x3`, and the [128, 2] second-layer weights `x4`
  with the [1, 2] bias `x5`. Changes of float format are the identity on extended reals, so what it stores at row `r`,
  lane `l` is
    exp (0 - max (∑ k, max (∑ i, (x0 r i - x1 r i) * x2 i k + x3 0 k) 0 * x4 k p + x5 0 p) 0) * x1 r l,   p = l / 64:
  the select on the lane number picks column `p` of the [4000, 2] attention for the half the lane lies in.
  With the block-diagonal weights each 128-lane contraction is the 64-lane one of its half (Spec's `sum_half`), and the
  stored value is the specification's `message` at the edge the lane belongs to.
-/
import proofs.«407621_j60533269069904_3_alg».proof.Proof.Gen.KernelIdeal.Skeleton
import Idealize.ShloMosaic.Lib.Pipeline.Value
import Idealize.ShloMosaic.Lib.ValueIdx
import Idealize.ShloMosaic.PureOps.Ideal.Laws
import proofs.«407621_j60533269069904_3_alg».proof.Proof.Spec

noncomputable section

open scoped BigOperators

namespace Cert.KernelIdeal.Body

open Cert.KernelIdeal Cert.KernelIdeal.Gen Idealize.ShloMosaic Idealize.ShloMosaic.ValueIdx
open Cert.EdgeAttn

/-! ## The two products read at an index -/

theorem lhs_mm1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at row `a` and column `b`: the sum over the 128 contracted lanes. -/
theorem mm1_apply (x : FVec Ideal S4000x128 .bf16) (y : FVec Ideal S128x128 .bf16) (a : Fin 4000) (b : Fin 128) :
    matmul dot_S4000x128_S128x128_S4000x128_1_0_0_1_n_n none x y (constant (F := Ideal) S4000x128 .f32 0x00000000#32) (ix2 a b)
      = ∑ k : Fin 128, x (ix2 a k) * y (ix2 k b) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 a b) ((contrEquiv1 dot_S4000x128_S128x128_S4000x128_1_0_0_1_n_n 128 rfl rfl).symm k) = ix2 a k := funext fun z => Fin.ext (by
    match z with
    | ⟨0, _⟩ => exact lhs_mm1_0 _ _
    | ⟨1, _⟩ => exact (lhs_mm1_1 _ _).trans hk)
  have er : dot_S4000x128_S128x128_S4000x128_1_0_0_1_n_n.rhsIdx (ix2 a b) ((contrEquiv1 dot_S4000x128_S128x128_S4000x128_1_0_0_1_n_n 128 rfl rfl).symm k) = ix2 k b := funext fun z => Fin.ext (by
    match z with
    | ⟨0, _⟩ => exact (rhs_mm1_0 _ _).trans hk
    | ⟨1, _⟩ => exact rhs_mm1_1 _ _)
  rw [el, er]

theorem lhs_mm2_0 (i : S4000x2.Idx) (q : dot_S4000x128_S128x2_S4000x2_1_0_0_1_n_n.contr.Idx) :
    (dot_S4000x128_S128x2_S4000x2_1_0_0_1_n_n.lhsIdx i q 0).val = (i 0).val := by
  unfold DotDims.lhsIdx
  rw [dif_neg (show ¬(0 : Fin S4000x128.rank) ∈ dot_S4000x128_S128x2_S4000x2_1_0_0_1_n_n.lhsBatch by decide), dif_pos (show (0 : Fin S4000x128.rank) ∈ dot_S4000x128_S128x2_S4000x2_1_0_0_1_n_n.lhsNonContracting by decide)]
  rfl
theorem lhs_mm2_1 (i : S4000x2.Idx) (q : dot_S4000x128_S128x2_S4000x2_1_0_0_1_n_n.contr.Idx) :
    (dot_S4000x128_S128x2_S4000x2_1_0_0_1_n_n.lhsIdx i q 1).val = (q ⟨0, by decide⟩).val :=
  dot_S4000x128_S128x2_S4000x2_1_0_0_1_n_n.lhsIdx_val_of_single rfl i q
theorem rhs_mm2_0 (i : S4000x2.Idx) (q : dot_S4000x128_S128x2_S4000x2_1_0_0_1_n_n.contr.Idx) :
    (dot_S4000x128_S128x2_S4000x2_1_0_0_1_n_n.rhsIdx i q 0).val = (q ⟨0, by decide⟩).val :=
  dot_S4000x128_S128x2_S4000x2_1_0_0_1_n_n.rhsIdx_val_of_single rfl i q
theorem rhs_mm2_1 (i : S4000x2.Idx) (q : dot_S4000x128_S128x2_S4000x2_1_0_0_1_n_n.contr.Idx) :
    (dot_S4000x128_S128x2_S4000x2_1_0_0_1_n_n.rhsIdx i q 1).val = (i 1).val := by
  unfold DotDims.rhsIdx
  rw [dif_neg (show ¬(1 : Fin S128x2.rank) ∈ dot_S4000x128_S128x2_S4000x2_1_0_0_1_n_n.rhsBatch by decide), dif_pos (show (1 : Fin S128x2.rank) ∈ dot_S4000x128_S128x2_S4000x2_1_0_0_1_n_n.rhsNonContracting by decide)]
  rfl

/-- The product into a zero accumulator, at row `a` and column `b`: the sum over the 128 contracted lanes. -/
theorem mm2_apply (x : FVec Ideal S4000x128 .bf16) (y : FVec Ideal S128x2 .bf16) (a : Fin 4000) (b : Fin 2) :
    matmul dot_S4000x128_S128x2_S4000x2_1_0_0_1_n_n none x y (constant (F := Ideal) S4000x2 .f32 0x00000000#32) (ix2 a b)
      = ∑ k : Fin 128, x (ix2 a k) * y (ix2 k b) := by
  simp only [matmul]
  rw [Ideal.matmul_constant_zero_apply, ← Equiv.sum_comp (contrEquiv1 dot_S4000x128_S128x2_S4000x2_1_0_0_1_n_n 128 rfl rfl).symm]
  refine Finset.sum_congr rfl fun k _ => ?_
  have hk := contrEquiv1_symm_val dot_S4000x128_S128x2_S4000x2_1_0_0_1_n_n 128 rfl rfl k
  have el : dot_S4000x128_S128x2_S4000x2_1_0_0_1_n_n.lhsIdx (ix2 a b) ((contrEquiv1 dot_S4000x128_S128x2_S4000x2_1_0_0_1_n_n 128 rfl rfl).symm k) = ix2 a k := funext fun z => Fin.ext (by
    match z with
    | ⟨0, _⟩ => exact lhs_mm2_0 _ _
    | ⟨1, _⟩ => exact (lhs_mm2_1 _ _).trans hk)
  have er : dot_S4000x128_S128x2_S4000x2_1_0_0_1_n_n.rhsIdx (ix2 a b) ((contrEquiv1 dot_S4000x128_S128x2_S4000x2_1_0_0_1_n_n 128 rfl rfl).symm k) = ix2 k b := funext fun z => Fin.ext (by
    match z with
    | ⟨0, _⟩ => exact (rhs_mm2_0 _ _).trans hk
    | ⟨1, _⟩ => exact rhs_mm2_1 _ _)
  rw [el, er]

/-! ## The layout operations read at an index -/

/-- A [1, 128] row broadcast down 4000 rows reads its lane. -/
theorem bcast_row128 (v : FVec Ideal S1x128 .f32) (h : S1x128.Broadcasts S4000x128) (r : Fin 4000) (k : Fin 128) :
    broadcastTo S4000x128 v h (ix2 r k) = v (ix2 (0 : Fin 1) k) :=
  broadcastTo_apply v h _ _ fun a => by match a with | ⟨0, _⟩ => rfl | ⟨1, _⟩ => rfl

/-- A [1, 2] row broadcast down 4000 rows reads its lane. -/
theorem bcast_row2 (v : FVec Ideal S1x2 .f32) (h : S1x2.Broadcasts S4000x2) (r : Fin 4000) (p : Fin 2) :
    broadcastTo S4000x2 v h (ix2 r p) = v (ix2 (0 : Fin 1) p) :=
  broadcastTo_apply v h _ _ fun a => by match a with | ⟨0, _⟩ => rfl | ⟨1, _⟩ => rfl

/-- A [4000, 1] column broadcast across 128 lanes reads its row. -/
theorem bcast_col (v : FVec Ideal S4000x1 .f32) (h : S4000x1.Broadcasts S4000x128) (r : Fin 4000) (l : Fin 128) :
    broadcastTo S4000x128 v h (ix2 r l) = v (ix2 r (0 : Fin 1)) :=
  broadcastTo_apply v h _ _ fun a => by match a with | ⟨0, _⟩ => rfl | ⟨1, _⟩ => rfl

/-- Column 0 of a [4000, 2] array. -/
theorem slice_col0 (v : FVec Ideal S4000x2 .f32) (h : S4000x2.Slices ![0, 0] S4000x1) (r : Fin 4000) :
    extractStridedSlice S4000x1 ![0, 0] v h (ix2 r (0 : Fin 1)) = v (ix2 r (0 : Fin 2)) :=
  extractStridedSlice_apply _ v h _ _ fun a => by match a with | ⟨0, _⟩ => (show r.val = 0 + r.val; omega) | ⟨1, _⟩ => rfl

/-- Column 1 of a [4000, 2] array. -/
theorem slice_col1 (v : FVec Ideal S4000x2 .f32) (h : S4000x2.Slices ![0, 1] S4000x1) (r : Fin 4000) :
    extractStridedSlice S4000x1 ![0, 1] v h (ix2 r (0 : Fin 1)) = v (ix2 r (1 : Fin 2)) :=
  extractStridedSlice_apply _ v h _ _ fun a => by match a with | ⟨0, _⟩ => (show r.val = 0 + r.val; omega) | ⟨1, _⟩ => rfl

/-- The lane number, as a 32-bit word, is below 64 exactly on the first half's lanes. -/
theorem lane_lt (l : Fin 128) : IntOp.cmpi .slt (BitVec.ofNat 32 l.val) 64#32 = if l.val < 64 then 1#1 else 0#1 := by
  revert l; decide

/-- The exponential of a vector at an index. -/
theorem exp_apply {s : Shape} {φ : FTy} (v : FVec Ideal s φ) (i : s.Idx) : exp v i = Ideal.exp (v i) := rfl

/-! ## What the body stores, at a lane -/

/-- The stored value at row `r`, lane `l` of half `p`, over the six loaded blocks. -/
theorem payload_apply (x0 : Vec Ideal S4000x128 .bf16) (x1 : Vec Ideal S4000x128 .f32) (x2 : Vec Ideal S128x128 .f32)
    (x3 : Vec Ideal S1x128 .f32) (x4 : Vec Ideal S128x2 .f32) (x5 : Vec Ideal S1x2 .f32) (r : Fin 4000) (l : Fin 128)
    (p : Fin 2) (hp : p.val = l.val / 64) :
    k0_pay1 (k0_pay2 x1) (k0_pay3 x0 x1 x2 x3 x4 x5) (ix2 r l)
      = Ideal.exp (0 - max ((∑ k : Fin 128, max ((∑ i : Fin 128, ((x0 (ix2 r i) : EReal) - (x1 (ix2 r i) : EReal)) * (x2 (ix2 i k) : EReal))
            + (x3 (ix2 (0 : Fin 1) k) : EReal)) 0 * (x4 (ix2 k p) : EReal))
            + (x5 (ix2 (0 : Fin 1) p) : EReal)) 0)
          * (x1 (ix2 r l) : EReal) := by
  unfold k0_pay1 k0_pay3 k0_pay2
  simp only [mulf_apply, select_apply, shapeCast_self, bcast_col, slice_col0, slice_col1, cmpi, broadcast_apply,
    exp_apply, subf_apply, maximumf_apply, addf_apply, mm2_apply, mm1_apply, truncf_apply, extf_apply, bcast_row2,
    bcast_row128, Ideal.ofBits_def, Ideal.ofBits_zero_f32]
  have hl128 := l.isLt
  have hlane : iota .tc S4000x128 32 [1] iota_S4000x128_d1_w32 (ix2 r l) = BitVec.ofNat 32 l.val :=
    iota_single_apply .tc S4000x128 32 1 iota_S4000x128_d1_w32 (ix2 r l)
  rw [hlane, lane_lt]
  by_cases hl : l.val < 64
  · obtain rfl : p = 0 := Fin.ext (by show p.val = 0; omega)
    rw [if_pos hl, select_one]
  · obtain rfl : p = 1 := Fin.ext (by show p.val = 1; have := p.isLt; omega)
    rw [if_neg hl, select_zero]

/-- With the two row blocks holding the packed rows of edges `2 (R0 + r) + p` and the parameter blocks block diagonal, the
    stored value at row `r`, lane `l` is the specification's message of edge `2 (R0 + r) + l / 64` at feature `l % 64`. -/
theorem payload_message (x0 : Vec Ideal S4000x128 .bf16) (x1 : Vec Ideal S4000x128 .f32) (x2 : Vec Ideal S128x128 .f32)
    (x3 : Vec Ideal S1x128 .f32) (x4 : Vec Ideal S128x2 .f32) (x5 : Vec Ideal S1x2 .f32)
    (fs fd : Rows) (W1 : W1T) (b1 : B1T) (W2 : W2T) (b2 : B2T) (R0 : Nat) (hR0 : R0 + 4000 ≤ 400000)
    (h0 : ∀ (r : Fin 4000) (i : Fin 128), (x0 (ix2 r i) : EReal)
        = fs (ix2 ⟨2 * (R0 + r.val) + i.val / 64, by have := r.isLt; have := i.isLt; omega⟩ ⟨i.val % 64, Nat.mod_lt _ (by decide)⟩))
    (h1 : ∀ (r : Fin 4000) (i : Fin 128), (x1 (ix2 r i) : EReal)
        = fd (ix2 ⟨2 * (R0 + r.val) + i.val / 64, by have := r.isLt; have := i.isLt; omega⟩ ⟨i.val % 64, Nat.mod_lt _ (by decide)⟩))
    (h2 : ∀ k l : Fin 128, (x2 (ix2 k l) : EReal)
        = if k.val / 64 = l.val / 64 then W1 (ix2 ⟨k.val % 64, Nat.mod_lt _ (by decide)⟩ ⟨l.val % 64, Nat.mod_lt _ (by decide)⟩) else 0)
    (h3 : ∀ l : Fin 128, (x3 (ix2 (0 : Fin 1) l) : EReal) = b1 (ix1 ⟨l.val % 64, Nat.mod_lt _ (by decide)⟩))
    (h4 : ∀ (k : Fin 128) (p : Fin 2), (x4 (ix2 k p) : EReal)
        = if k.val / 64 = p.val then W2 (ix2 ⟨k.val % 64, Nat.mod_lt _ (by decide)⟩ (0 : Fin 1)) else 0)
    (h5 : ∀ p : Fin 2, (x5 (ix2 (0 : Fin 1) p) : EReal) = b2 (ix1 (0 : Fin 1)))
    (r : Fin 4000) (l : Fin 128) :
    k0_pay1 (k0_pay2 x1) (k0_pay3 x0 x1 x2 x3 x4 x5) (ix2 r l)
      = message fs fd W1 b1 W2 b2 (ix2 ⟨2 * (R0 + r.val) + l.val / 64, by have := r.isLt; have := l.isLt; omega⟩ ⟨l.val % 64, Nat.mod_lt _ (by decide)⟩) := by
  have hl := l.isLt; have hr := r.isLt
  -- the half the lane lies in, and the edge it belongs to
  obtain ⟨p, hp⟩ : ∃ p : Fin 2, p.val = l.val / 64 := ⟨⟨l.val / 64, by omega⟩, rfl⟩
  have hpl := p.isLt
  obtain ⟨e, he⟩ : ∃ e : Fin 800000, e.val = 2 * (R0 + r.val) + p.val := ⟨⟨2 * (R0 + r.val) + p.val, by omega⟩, rfl⟩
  have hE : (⟨2 * (R0 + r.val) + l.val / 64, by omega⟩ : Fin 800000) = e := Fin.ext (by show 2 * (R0 + r.val) + l.val / 64 = e.val; omega)
  -- a lane of half `p` reads edge `e`'s rows
  have hrow : ∀ (x : Vec Ideal S4000x128 .f32) (f : Rows), (∀ (r : Fin 4000) (i : Fin 128), (x (ix2 r i) : EReal)
        = f (ix2 ⟨2 * (R0 + r.val) + i.val / 64, by have := r.isLt; have := i.isLt; omega⟩ ⟨i.val % 64, Nat.mod_lt _ (by decide)⟩)) →
      ∀ i : Fin 64, (x (ix2 r ⟨64 * p.val + i.val, by have := i.isLt; omega⟩) : EReal) = f (ix2 e i) := by
    intro x f hx i
    have hi := i.isLt
    rw [hx]
    exact congrArg f (Shape.idx_ext₂ (by show 2 * (R0 + r.val) + (64 * p.val + i.val) / 64 = e.val; omega)
      (by show (64 * p.val + i.val) % 64 = i.val; omega))
  -- the first layer at a lane of half `p` is the specification's hidden unit
  have hH : ∀ k : Fin 64,
      max ((∑ i : Fin 128, ((x0 (ix2 r i) : EReal) - (x1 (ix2 r i) : EReal))
          * (x2 (ix2 i ⟨64 * p.val + k.val, by have := k.isLt; omega⟩) : EReal))
        + (x3 (ix2 (0 : Fin 1) ⟨64 * p.val + k.val, by have := k.isLt; omega⟩) : EReal)) 0
      = EdgeAttn.hidden fs fd W1 b1 e k := by
    intro k
    have hk := k.isLt
    unfold EdgeAttn.hidden
    rw [sum_half p (fun i => (x0 (ix2 r i) : EReal) - (x1 (ix2 r i) : EReal))
        (fun i => (x2 (ix2 i ⟨64 * p.val + k.val, by omega⟩) : EReal)) (fun i => W1 (ix2 i k))
        (fun i => by
          rw [h2]
          have e1 : (64 * p.val + k.val) / 64 = p.val := by omega
          rw [show (⟨64 * p.val + k.val, by omega⟩ : Fin 128).val / 64 = p.val from e1]
          refine if_congr Iff.rfl ?_ rfl
          exact congrArg W1 (Shape.idx_ext₂ rfl (by show (64 * p.val + k.val) % 64 = k.val; omega))),
      h3]
    congr 2
    · refine Finset.sum_congr rfl fun i _ => ?_
      rw [hrow x0 fs h0 i, hrow x1 fd h1 i]
    · exact congrArg b1 (funext fun a => Fin.ext (by match a with | ⟨0, _⟩ => show (64 * p.val + k.val) % 64 = k.val; omega))
  rw [payload_apply x0 x1 x2 x3 x4 x5 r l p hp, message_apply, hE, h1 r l, zero_sub]
  congr 3
  unfold EdgeAttn.score
  rw [sum_half p _ (fun k => (x4 (ix2 k p) : EReal)) (fun k => W2 (ix2 k (0 : Fin 1))) (fun k => h4 k p), h5 p]
  congr 2
  refine Finset.sum_congr rfl fun k _ => ?_
  rw [hH k]

/-- The same at any index of the block, by its two coordinates. -/
theorem payload_message_at (x0 : Vec Ideal S4000x128 .bf16) (x1 : Vec Ideal S4000x128 .f32) (x2 : Vec Ideal S128x128 .f32)
    (x3 : Vec Ideal S1x128 .f32) (x4 : Vec Ideal S128x2 .f32) (x5 : Vec Ideal S1x2 .f32)
    (fs fd : Rows) (W1 : W1T) (b1 : B1T) (W2 : W2T) (b2 : B2T) (R0 : Nat) (hR0 : R0 + 4000 ≤ 400000)
    (h0 : ∀ (r : Fin 4000) (i : Fin 128), (x0 (ix2 r i) : EReal)
        = fs (ix2 ⟨2 * (R0 + r.val) + i.val / 64, by have := r.isLt; have := i.isLt; omega⟩ ⟨i.val % 64, Nat.mod_lt _ (by decide)⟩))
    (h1 : ∀ (r : Fin 4000) (i : Fin 128), (x1 (ix2 r i) : EReal)
        = fd (ix2 ⟨2 * (R0 + r.val) + i.val / 64, by have := r.isLt; have := i.isLt; omega⟩ ⟨i.val % 64, Nat.mod_lt _ (by decide)⟩))
    (h2 : ∀ k l : Fin 128, (x2 (ix2 k l) : EReal)
        = if k.val / 64 = l.val / 64 then W1 (ix2 ⟨k.val % 64, Nat.mod_lt _ (by decide)⟩ ⟨l.val % 64, Nat.mod_lt _ (by decide)⟩) else 0)
    (h3 : ∀ l : Fin 128, (x3 (ix2 (0 : Fin 1) l) : EReal) = b1 (ix1 ⟨l.val % 64, Nat.mod_lt _ (by decide)⟩))
    (h4 : ∀ (k : Fin 128) (p : Fin 2), (x4 (ix2 k p) : EReal)
        = if k.val / 64 = p.val then W2 (ix2 ⟨k.val % 64, Nat.mod_lt _ (by decide)⟩ (0 : Fin 1)) else 0)
    (h5 : ∀ p : Fin 2, (x5 (ix2 (0 : Fin 1) p) : EReal) = b2 (ix1 (0 : Fin 1)))
    (j : S4000x128.Idx) :
    k0_pay1 (k0_pay2 x1) (k0_pay3 x0 x1 x2 x3 x4 x5) j
      = message fs fd W1 b1 W2 b2 (ix2 ⟨2 * (R0 + (j 0).val) + (j 1).val / 64, by have := idx2_lt0 j; have := idx2_lt1 j; omega⟩
          ⟨(j 1).val % 64, Nat.mod_lt _ (by decide)⟩) := by
  obtain ⟨r, l, rfl⟩ : ∃ (r : Fin 4000) (l : Fin 128), j = ix2 r l := ⟨j 0, j 1, eq_ix2 j⟩
  exact payload_message x0 x1 x2 x3 x4 x5 fs fd W1 b1 W2 b2 R0 hR0 h0 h1 h2 h3 h4 h5 r l

end Cert.KernelIdeal.Body

end
-- ==== Proof.Value.lean ====
/-
  From the blocks to the result array.

  The grid has 100 points; point `t` is handed rows `4000 t … 4000 t + 3999` of the two packed row arrays, and the four
  parameter arrays whole, and writes back rows `4000 t …` of the packed result. With the body's stored value identified
  (Body), point `t` writes block `t` of one whole-array function: the message array viewed two edges to a row. The 100
  blocks tile the [400000, 128] array, so after the region the array is that function; the reshape after the region
  views it back as [800000, 64], which undoes the packing: the result is `message` of the gathered rows.
-/
import proofs.«407621_j60533269069904_3_alg».proof.Proof.Gen.KernelIdeal.Frame
import proofs.«407621_j60533269069904_3_alg».proof.Proof.HostSide
import proofs.«407621_j60533269069904_3_alg».proof.Proof.Body
import Idealize.ShloMosaic.Lib.Pipeline.Value

noncomputable section

open Idealize.ShloMosaic Idealize.ShloMosaic.TcCoe Idealize.SL.Sem
open Idealize.ShloMosaic.Pipeline (Dat)

namespace Cert.KernelIdeal.EdgeValue

open Cert.KernelIdeal Cert.KernelIdeal.Gen Cert.KernelIdeal.HostSide Cert.KernelIdeal.Body Cert.EdgeAttn
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- A grid point's number is below 100. -/
theorem tlt (t : Fin cfg0.N) : t.val < 100 := lt_of_lt_of_eq (show t.val < grid0.N from t.isLt) N_0

/-- The message array of the launched inputs, and the same two edges to a row. -/
def msg (c : Dev nD) : Rows := message (rows m c (srcIdx m c)) (rows m c (dstIdx m c)) (w1 m c) (b1 m c) (w2 m c) (b2 m c)
def packed (c : Dev nD) : S400000x128.Idx → EReal := shapeCast S400000x128 (msg m c) shapeCasts_S800000x64_S400000x128

/-- The printed index maps over the grid: the row arrays and the result move one block of 4000 rows a point, the
    parameter arrays stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks at coordinates -/

/-- Input window 0's block at point `t`, at coordinates. -/
theorem iblk0_at (c : Dev nD) (t : Fin cfg0.N) (a : Fin 4000) (b : Fin 128) :
    (iblk m c 0 t : Vec Ideal S4000x128 .bf16) (ix2 a b)
      = (V m c main_v3 : S400000x128.Idx → EReal) (ix2 ⟨4000 * t.val + a.val, by have := tlt t; have := a.isLt; omega⟩ b) := by
  obtain ⟨e00, e01, e10, e11, e20, e21, e30, e31, e40, e41, e50, e51, e60, e61⟩ := idx_facts t
  unfold iblk
  rw [View.read_apply]
  show V m c main_v3 _ = V m c main_v3 _
  congr 1
  funext z
  apply Fin.ext
  match z with
  | ⟨0, _⟩ => show win0_0.index t (0 : Fin 2) * 4000 + 1 * a.val = 4000 * t.val + a.val; rw [e00]; omega
  | ⟨1, _⟩ => show win0_0.index t (1 : Fin 2) * 128 + 1 * b.val = b.val; rw [e01]; omega

/-- Input window 1's block at point `t`, at coordinates. -/
theorem iblk1_at (c : Dev nD) (t : Fin cfg0.N) (a : Fin 4000) (b : Fin 128) :
    (iblk m c 1 t : Vec Ideal S4000x128 .f32) (ix2 a b)
      = (V m c main_v4 : S400000x128.Idx → EReal) (ix2 ⟨4000 * t.val + a.val, by have := tlt t; have := a.isLt; omega⟩ b) := by
  obtain ⟨e00, e01, e10, e11, e20, e21, e30, e31, e40, e41, e50, e51, e60, e61⟩ := idx_facts t
  unfold iblk
  rw [View.read_apply]
  show V m c main_v4 _ = V m c main_v4 _
  congr 1
  funext z
  apply Fin.ext
  match z with
  | ⟨0, _⟩ => show win0_1.index t (0 : Fin 2) * 4000 + 1 * a.val = 4000 * t.val + a.val; rw [e10]; omega
  | ⟨1, _⟩ => show win0_1.index t (1 : Fin 2) * 128 + 1 * b.val = b.val; rw [e11]; omega

/-- Input window 2's block at point `t`, at coordinates. -/
theorem iblk2_at (c : Dev nD) (t : Fin cfg0.N) (a : Fin 128) (b : Fin 128) :
    (iblk m c 2 t : Vec Ideal S128x128 .f32) (ix2 a b)
      = (V m c main_v8 : S128x128.Idx → EReal) (ix2 ⟨a.val, by have := tlt t; have := a.isLt; omega⟩ b) := by
  obtain ⟨e00, e01, e10, e11, e20, e21, e30, e31, e40, e41, e50, e51, e60, e61⟩ := idx_facts t
  unfold iblk
  rw [View.read_apply]
  show V m c main_v8 _ = V m c main_v8 _
  congr 1
  funext z
  apply Fin.ext
  match z with
  | ⟨0, _⟩ => show win0_2.index t (0 : Fin 2) * 128 + 1 * a.val = a.val; rw [e20]; omega
  | ⟨1, _⟩ => show win0_2.index t (1 : Fin 2) * 128 + 1 * b.val = b.val; rw [e21]; omega

/-- Input window 3's block at point `t`, at coordinates. -/
theorem iblk3_at (c : Dev nD) (t : Fin cfg0.N) (a : Fin 1) (b : Fin 128) :
    (iblk m c 3 t : Vec Ideal S1x128 .f32) (ix2 a b)
      = (V m c main_v10 : S1x128.Idx → EReal) (ix2 ⟨a.val, by have := tlt t; have := a.isLt; omega⟩ b) := by
  obtain ⟨e00, e01, e10, e11, e20, e21, e30, e31, e40, e41, e50, e51, e60, e61⟩ := idx_facts t
  unfold iblk
  rw [View.read_apply]
  show V m c main_v10 _ = V m c main_v10 _
  congr 1
  funext z
  apply Fin.ext
  match z with
  | ⟨0, _⟩ => show win0_3.index t (0 : Fin 2) * 1 + 1 * a.val = a.val; rw [e30]; omega
  | ⟨1, _⟩ => show win0_3.index t (1 : Fin 2) * 128 + 1 * b.val = b.val; rw [e31]; omega

/-- Input window 4's block at point `t`, at coordinates. -/
theorem iblk4_at (c : Dev nD) (t : Fin cfg0.N) (a : Fin 128) (b : Fin 2) :
    (iblk m c 4 t : Vec Ideal S128x2 .f32) (ix2 a b)
      = (V m c main_v14 : S128x2.Idx → EReal) (ix2 ⟨a.val, by have := tlt t; have := a.isLt; omega⟩ b) := by
  obtain ⟨e00, e01, e10, e11, e20, e21, e30, e31, e40, e41, e50, e51, e60, e61⟩ := idx_facts t
  unfold iblk
  rw [View.read_apply]
  show V m c main_v14 _ = V m c main_v14 _
  congr 1
  funext z
  apply Fin.ext
  match z with
  | ⟨0, _⟩ => show win0_4.index t (0 : Fin 2) * 128 + 1 * a.val = a.val; rw [e40]; omega
  | ⟨1, _⟩ => show win0_4.index t (1 : Fin 2) * 2 + 1 * b.val = b.val; rw [e41]; omega

/-- Input window 5's block at point `t`, at coordinates. -/
theorem iblk5_at (c : Dev nD) (t : Fin cfg0.N) (a : Fin 1) (b : Fin 2) :
    (iblk m c 5 t : Vec Ideal S1x2 .f32) (ix2 a b)
      = (V m c main_v16 : S1x2.Idx → EReal) (ix2 ⟨a.val, by have := tlt t; have := a.isLt; omega⟩ b) := by
  obtain ⟨e00, e01, e10, e11, e20, e21, e30, e31, e40, e41, e50, e51, e60, e61⟩ := idx_facts t
  unfold iblk
  rw [View.read_apply]
  show V m c main_v16 _ = V m c main_v16 _
  congr 1
  funext z
  apply Fin.ext
  match z with
  | ⟨0, _⟩ => show win0_5.index t (0 : Fin 2) * 1 + 1 * a.val = a.val; rw [e50]; omega
  | ⟨1, _⟩ => show win0_5.index t (1 : Fin 2) * 2 + 1 * b.val = b.val; rw [e51]; omega

/-! ## What a point writes back -/

/-- Point `t` writes back block `t` of the packed message array. -/
theorem flushed_eq (c : Dev nD) (t : Fin cfg0.N) :
    (dats m 0 c).flushed 6 t = ((cfg0.win 6).blk t).view.read (Elt Ideal) (packed m c) := by
  obtain ⟨e00, e01, e10, e11, e20, e21, e30, e31, e40, e41, e50, e51, e60, e61⟩ := idx_facts t
  have ht := tlt t
  show (cfg0.win 6).cut (grid0.coords t) ((dats m 0 c).after 6 t) = _
  rw [after0_6]
  unfold out0_6
  rw [View.canon_unit_zero hz]
  simp only [View.ld_unit_zero (S := S4000x128) hz, View.ld_unit_zero (S := S128x128) hz, View.ld_unit_zero (S := S1x128) hz,
    View.ld_unit_zero (S := S128x2) hz, View.ld_unit_zero (S := S1x2) hz]
  funext j
  show k0_pay1 (k0_pay2 (iblk m c 1 t)) (k0_pay3 (iblk m c 0 t) (iblk m c 1 t) (iblk m c 2 t) (iblk m c 3 t) (iblk m c 4 t) (iblk m c 5 t)) j
      = packed m c (((cfg0.win 6).blk t).view.emb j)
  refine (payload_message_at (iblk m c 0 t) (iblk m c 1 t) (iblk m c 2 t) (iblk m c 3 t) (iblk m c 4 t) (iblk m c 5 t)
    (rows m c (srcIdx m c)) (rows m c (dstIdx m c)) (w1 m c) (b1 m c) (w2 m c) (b2 m c) (4000 * t.val) (by omega)
    (fun r i => (iblk0_at m c t r i).trans (src_at m c _ i))
    (fun r i => (iblk1_at m c t r i).trans (dst_at m c _ i))
    (fun k l => (iblk2_at m c t k l).trans (w1_at m c _ l))
    (fun l => (iblk3_at m c t 0 l).trans (b1_at m c l))
    (fun k p => (iblk4_at m c t k p).trans (w2_at m c _ p))
    (fun p => (iblk5_at m c t 0 p).trans (b2_at m c p))
    j).trans ?_
  have hj0 : (j 0).val < 4000 := (j 0).isLt
  have hj1 : (j 1).val < 128 := (j 1).isLt
  have hemb : ((cfg0.win 6).blk t).view.emb j = ix2 (⟨4000 * t.val + (j 0).val, by omega⟩ : Fin 400000) (⟨(j 1).val, hj1⟩ : Fin 128) := by
    funext a; apply Fin.ext
    match a with
    | ⟨0, _⟩ => show win0_6.index t (0 : Fin 2) * 4000 + 1 * (j 0).val = 4000 * t.val + (j 0).val; rw [e60]; omega
    | ⟨1, _⟩ => show win0_6.index t (1 : Fin 2) * 128 + 1 * (j 1).val = (j 1).val; rw [e61]; omega
  rw [hemb]
  unfold packed
  rw [packed_apply]
  rfl

/-- An index of the packed array is in point `t`'s block iff each coordinate is in the block's range on its axis. -/
theorem mem_blk (t : Fin cfg0.N) (i : S400000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v17).slice (win0_6.rect t)).set ↔ _
  rw [View.set_slice_whole, Rect.mem_set_unit]
  exact Iff.rfl

/-- Every row of the packed array lies in the block of the point its number divided by 4000 names. -/
theorem cover (i : S400000x128.Idx) : ∃ t : Fin cfg0.N, (cfg0.win 6).flush t = true ∧ i ∈ ((cfg0.win 6).blk t).view.set := by
  have hi0 := idx2_lt0 i
  have hi1 := idx2_lt1 i
  obtain ⟨t, htv⟩ : ∃ t : Fin cfg0.N, t.val = (i 0).val / 4000 :=
    ⟨⟨(i 0).val / 4000, by show (i 0).val / 4000 < grid0.N; rw [N_0]; omega⟩, rfl⟩
  obtain ⟨-, -, -, -, -, -, -, -, -, -, -, -, e60, e61⟩ := idx_facts t
  refine ⟨t, flush0_6 t, (mem_blk t i).2 fun a => ?_⟩
  match a with
  | ⟨0, _⟩ =>
    show win0_6.index t (0 : Fin 2) * 4000 ≤ (i 0).val ∧ (i 0).val < win0_6.index t (0 : Fin 2) * 4000 + 4000
    rw [e60, htv]; omega
  | ⟨1, _⟩ =>
    show win0_6.index t (1 : Fin 2) * 128 ≤ (i 1).val ∧ (i 1).val < win0_6.index t (1 : Fin 2) * 128 + 128
    rw [e61]; omega

/-- After the region the result window's array is the packed message array. -/
theorem final (c : Dev nD) : (dats m 0 c).arrAt 6 cfg0.N = packed m c :=
  (dats m 0 c).arrAt_eq_of_cover 6 (packed m c) (fun t _ => flushed_eq m c t) cover

/-! ## The reshape after the region, and the run -/

/-- What the line after the region leaves in the result: the packed array viewed [800000, 64] again, the message array. -/
theorem result_eq (c : Dev nD) : Pipeline.afterTail₀ cfgs (dats m) 0 (V0 m) [hostOps1] c main_v18 = msg m c := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = packed m c :=
    (Pipeline.withArrays_arr spec0 launch0.win.arr_inj c _ _ 6).trans (final m c)
  refine Eq.trans (b := shapeCast S800000x64 (packed m c) shapeCasts_S400000x128_S800000x64) ?_ (shapeCast_shapeCast _ _ _)
  funext i
  show shapeCast S800000x64 (Pipeline.withArrays (cfgs 0).spec c (V0 m c) (fun w => (dats m 0 c).arrAt w (cfgs 0).N)
      (Proc.devRef .tc main_v17)) shapeCasts_S400000x128_S800000x64 i = _
  rw [hw]

/-- The run, read: the result array ends at the message array of the launched inputs, the arguments unchanged. -/
theorem run : θ_run defs (onTc (τ := τ) (main (F := Ideal))) ⟨m, fun _ => 0, ρ⟩ fun r => ∀ c : Dev nD,
      r.2.mem ((c : Thread nD τ).loc main_v18) = msg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.EdgeValue

end
-- ==== Proof.lean ====
/-
  The claim: the packed two-edges-per-row edge perceptron against its plain jnp reference, over the extended reals.

  Both programs gather a source row and a destination row of the node table per edge and compute, per edge,
  `exp (-(relu (relu ((src - dst) W1 + b1) W2 + b2))) * dst` (Spec's `message`). The reference does it edge by edge. The
  kernel packs two edges into one 128-lane row and uses block-diagonal weights; at the ideal instance the off-diagonal
  products vanish, each contraction is the 64-lane one of its half, and the select on the lane number hands each half
  its own attention (Body). The 100 grid points' blocks tile the packed result, and the final reshape undoes the packing
  (Value). The one difference between the two programs is at a NEGATIVE index: jnp's `features[idx]` wraps it from the end
  of the table while the kernel's clipped take reads row 0. The precondition therefore carries, beside finiteness,
  `src_idx ≥ 0` and `dst_idx ≥ 0` (PreDecode reads them back); on such indices the wrap is the identity (RefSide) and the
  two gathers are one term. At or above the table's length both programs clamp to the last row, so no upper bound is
  needed. Finiteness of the float inputs is not used: a product with the zero word vanishes on every extended real.
-/
import proofs.«407621_j60533269069904_3_alg».proof.Defs
import proofs.«407621_j60533269069904_3_alg».proof.Proof.Gen.Kernel
import proofs.«407621_j60533269069904_3_alg».proof.Proof.Gen.Kernel.Skeleton
import proofs.«407621_j60533269069904_3_alg».proof.Proof.Gen.Kernel.Launch
import proofs.«407621_j60533269069904_3_alg».proof.Proof.Gen.Kernel.Points
import proofs.«407621_j60533269069904_3_alg».proof.Proof.Gen.Kernel.Frame
import proofs.«407621_j60533269069904_3_alg».proof.Proof.Gen.KernelIdeal
import proofs.«407621_j60533269069904_3_alg».proof.Proof.Gen.KernelIdeal.Skeleton
import proofs.«407621_j60533269069904_3_alg».proof.Proof.Gen.KernelIdeal.Launch
import proofs.«407621_j60533269069904_3_alg».proof.Proof.Gen.KernelIdeal.Points
import proofs.«407621_j60533269069904_3_alg».proof.Proof.Gen.KernelIdeal.Frame
import proofs.«407621_j60533269069904_3_alg».proof.Proof.Gen.ReferenceIdeal
import proofs.«407621_j60533269069904_3_alg».proof.Proof.Gen.ReferenceIdeal.Run
import proofs.«407621_j60533269069904_3_alg».proof.Proof.Gen.ReferenceIdeal.Read
import proofs.«407621_j60533269069904_3_alg».proof.Proof.Gen.Pre_finite_inputs
import proofs.«407621_j60533269069904_3_alg».proof.Proof.PreDecode
import proofs.«407621_j60533269069904_3_alg».proof.Proof.RefSide
import proofs.«407621_j60533269069904_3_alg».proof.Proof.Value
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at `message` of the rows gathered at the launched index arrays. -/
theorem algebraic : Cert.algebraic_KernelIdeal_ReferenceIdeal := by
  intro m ρ m' ρ' hpre hagree
  refine ⟨fun c => Cert.KernelIdeal.EdgeValue.msg m c, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨hs, hd⟩ := Cert.Pre_finite_inputs.Decode.nonneg_of_pre _ _ _ _ _ _ _ (hpre c)
  rw [Cert.ReferenceIdeal.Read.val_main_v28_eq, a0, a1, a2, a3, a4, a5, a6,
    Cert.ReferenceIdeal.RefValue.result_eq _ _ _ _ _ _ _ hs hd]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
